-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : IVec S1600000 32) (main_arg2 : IVec S1600000 32) (main_arg3 : FVec F S64x128 .f32) (main_arg4 : FVec F S64x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x128 : Shape := ⟨2, ![1, 128]⟩
abbrev S100000x128 : Shape := ⟨2, ![100000, 128]⟩
abbrev S2000x64 : Shape := ⟨2, ![2000, 64]⟩
abbrev S2000x128 : Shape := ⟨2, ![2000, 128]⟩
abbrev S1600000x128 : Shape := ⟨2, ![1600000, 128]⟩
abbrev S1x64 : Shape := ⟨2, ![1, 64]⟩

abbrev nBuf : Space → Nat
  | .hbm => 75
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S1x64, .f32⟩
  | .hbm, ⟨74, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S2000x64, .f32⟩
  | .local _ .vmem, ⟨26, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  shapeCasts_S2000x64_S2000x64 : S2000x64.ShapeCasts S2000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x128_S2000x128_1_0_0_1_n_n_wf : DotDims.WF S2000x64 S64x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S100000x1, .f32⟩
  | .hbm, ⟨85, _⟩ => ⟨S100000x128, .f32⟩
  | .hbm, ⟨86, _⟩ => ⟨S100000x128, .f32⟩
  | .hbm, ⟨87, _⟩ => ⟨S100000x64, .f32⟩
  | .hbm, ⟨88, _⟩ => ⟨S100000x64, .f32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S100000x64, .f32⟩
  | .hbm, ⟨95, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call1_cst : Ref sig .tc := ⟨.hbm, 68, rfl⟩
abbrev main_call1_v0 : Ref sig .tc := ⟨.hbm, 69, rfl⟩
abbrev main_v45 : Ref sig .tc := ⟨.hbm, 70, rfl⟩
abbrev main_c_7 : Ref sig .tc := ⟨.hbm, 71, rfl⟩
abbrev main_v46 : Ref sig .tc := ⟨.hbm, 72, rfl⟩
abbrev main_v47 : Ref sig .tc := ⟨.hbm, 73, rfl⟩
abbrev main_c_8 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Layers.lean ====
/-
  One SAGE layer as ONE function of whole arrays, index by index, over the extended reals.

  For node features `h : N × K`, aggregated neighbour features `hn : N × K`, weights `ws wn : K × D` and a bias row
  `b : 1 × D`, entry `(r, d)` of the layer's result is

      max ( (Σ_k h[r,k] · ws[k,d]  +  Σ_k hn[r,k] · wn[k,d])  +  b[0,d] ,  0 ).

  The three layers of the network differ only in their extents: (K, D) = (64, 128), (128, 128), (128, 64), N = 100000.
  Each is written out over its literal shapes; the operand indices are built coordinate by coordinate.
-/
import proofs.«136679_j50062138802388_1_alg».proof.KernelIdeal
import Idealize.ShloMosaic.PureOps.Ideal
import Idealize.ShloMosaic.Lib.ValueIdx

noncomputable section

namespace Cert.Sage

open Idealize.ShloMosaic Cert.KernelIdeal

/-! ## Layer 0 : 64 → 128 -/

/-- Row `i 0` of an N × 64 array at column `k`. -/
abbrev row0 (i : S100000x128.Idx) (k : Fin 64) : S100000x64.Idx := fun a => match a with
  | ⟨0, _⟩ => ⟨(i 0).val, (i 0).isLt⟩
  | ⟨1, _⟩ => ⟨k.val, k.isLt⟩
/-- Column `i 1` of a 64 × 128 weight matrix at row `k`. -/
abbrev col0 (i : S100000x128.Idx) (k : Fin 64) : S64x128.Idx := fun a => match a with
  | ⟨0, _⟩ => ⟨k.val, k.isLt⟩
  | ⟨1, _⟩ => ⟨(i 1).val, (i 1).isLt⟩
/-- The bias row's entry under column `i 1`. -/
abbrev bias0 (i : S100000x128.Idx) : S1x128.Idx := fun a => match a with
  | ⟨0, _⟩ => ⟨0, Nat.one_pos⟩
  | ⟨1, _⟩ => ⟨(i 1).val, (i 1).isLt⟩

/-- Layer 0: `relu (h · ws + hn · wn + b)`, entry by entry. -/
def layer0 (h hn : S100000x64.Idx → EReal) (ws wn : S64x128.Idx → EReal) (b : S1x128.Idx → EReal) : S100000x128.Idx → EReal :=
  fun i => max (((∑ k : Fin 64, h (row0 i k) * ws (col0 i k)) + (∑ k : Fin 64, hn (row0 i k) * wn (col0 i k))) + b (bias0 i))
    (Ideal.ofBits .f32 0x00000000#32)

/-! ## Layer 1 : 128 → 128 -/

abbrev row1 (i : S100000x128.Idx) (k : Fin 128) : S100000x128.Idx := fun a => match a with
  | ⟨0, _⟩ => ⟨(i 0).val, (i 0).isLt⟩
  | ⟨1, _⟩ => ⟨k.val, k.isLt⟩
abbrev col1 (i : S100000x128.Idx) (k : Fin 128) : S128x128.Idx := fun a => match a with
  | ⟨0, _⟩ => ⟨k.val, k.isLt⟩
  | ⟨1, _⟩ => ⟨(i 1).val, (i 1).isLt⟩

/-- Layer 1: the same function over 128 input and 128 output features. -/
def layer1 (h hn : S100000x128.Idx → EReal) (ws wn : S128x128.Idx → EReal) (b : S1x128.Idx → EReal) : S100000x128.Idx → EReal :=
  fun i => max (((∑ k : Fin 128, h (row1 i k) * ws (col1 i k)) + (∑ k : Fin 128, hn (row1 i k) * wn (col1 i k))) + b (bias0 i))
    (Ideal.ofBits .f32 0x00000000#32)

/-! ## Layer 2 : 128 → 64 -/

abbrev row2 (i : S100000x64.Idx) (k : Fin 128) : S100000x128.Idx := fun a => match a with
  | ⟨0, _⟩ => ⟨(i 0).val, (i 0).isLt⟩
  | ⟨1, _⟩ => ⟨k.val, k.isLt⟩
abbrev col2 (i : S100000x64.Idx) (k : Fin 128) : S128x64.Idx := fun a => match a with
  | ⟨0, _⟩ => ⟨k.val, k.isLt⟩
  | ⟨1, _⟩ => ⟨(i 1).val, (i 1).isLt⟩
abbrev bias2 (i : S100000x64.Idx) : S1x64.Idx := fun a => match a with
  | ⟨0, _⟩ => ⟨0, Nat.one_pos⟩
  | ⟨1, _⟩ => ⟨(i 1).val, (i 1).isLt⟩

/-- Layer 2: the same function over 128 input and 64 output features. -/
def layer2 (h hn : S100000x128.Idx → EReal) (ws wn : S128x64.Idx → EReal) (b : S1x64.Idx → EReal) : S100000x64.Idx → EReal :=
  fun i => max (((∑ k : Fin 128, h (row2 i k) * ws (col2 i k)) + (∑ k : Fin 128, hn (row2 i k) * wn (col2 i k))) + b (bias2 i))
    (Ideal.ofBits .f32 0x00000000#32)

end Cert.Sage

end
-- ==== Proof.RefValue.lean ====
/-
  The reference, layer by layer: each `relu (h @ w_self + mean_agg(h) @ w_neigh + b)` of the reference program is the
  layer function of Layers.lean applied to the previous layer's result `h`, the aggregated neighbour features
  `mean_agg(h)` (the gather, scatter-add and division by the in-degree, carried as ONE stage and never opened), the two
  weight matrices and the bias laid out as a row. A host `dot_general` with one contracted axis is the plain sum over
  that axis, a broadcast reads its operand at the trailing coordinates, and the additions and the maximum act entry by
  entry; so the two sides agree entry by entry with the same operand indices.
-/
import proofs.«136679_j50062138802388_1_alg».proof.Proof.Gen.ReferenceIdeal.Run
import proofs.«136679_j50062138802388_1_alg».proof.Proof.Gen.ReferenceIdeal.Read
import proofs.«136679_j50062138802388_1_alg».proof.Proof.Layers

noncomputable section

namespace Cert.Sage.Ref

open Idealize.ShloMosaic Cert.ReferenceIdeal Cert.ReferenceIdeal.Read

/-- Layer 0 of the reference is `layer0` of the input features, their aggregate, the weights and the bias row. -/
theorem layer0_eq (x0 : (⟨S100000x64, .f32⟩ : BufTy).Contents (Elt Ideal)) (x1 x2 : (⟨S1600000, .i32⟩ : BufTy).Contents (Elt Ideal))
    (x3 x4 : (⟨S64x128, .f32⟩ : BufTy).Contents (Elt Ideal)) (x5 : (⟨S128, .f32⟩ : BufTy).Contents (Elt Ideal)) :
    val_main_v25 (F := Ideal) x0 x1 x2 x3 x4 x5
      = Cert.Sage.layer0 x0 (val_main_v18 (F := Ideal) x0 x1 x2) x3 x4 (val_main_v22 (F := Ideal) x5) := by
  funext i
  rw [val_main_v25_apply, val_main_v24_apply, val_main_v21_apply, val_main_v19_apply, val_main_v20_apply, val_main_v23_apply,
    val_main_call0_v0_apply, val_main_call0_cst_apply]
  rfl

/-- Layer 1 of the reference is `layer1` of layer 0's result, its aggregate, the weights and the bias row. -/
theorem layer1_eq (x0 : (⟨S100000x64, .f32⟩ : BufTy).Contents (Elt Ideal)) (x1 x2 : (⟨S1600000, .i32⟩ : BufTy).Contents (Elt Ideal))
    (x3 x4 : (⟨S64x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal)) :
    val_main_v45 (F := Ideal) x0 x1 x2 x3 x4 x5 x6 x7 x8
      = Cert.Sage.layer1 (val_main_v25 (F := Ideal) x0 x1 x2 x3 x4 x5) (val_main_v38 (F := Ideal) x0 x1 x2 x3 x4 x5) x6 x7 (val_main_v42 (F := Ideal) x8) := by
  funext i
  rw [val_main_v45_apply, val_main_v44_apply, val_main_v41_apply, val_main_v39_apply, val_main_v40_apply, val_main_v43_apply,
    val_main_call1_v0_apply, val_main_call1_cst_apply]
  rfl

/-- Layer 2 of the reference is `layer2` of layer 1's result, its aggregate, the weights and the bias row. -/
theorem layer2_eq (x0 : (⟨S100000x64, .f32⟩ : BufTy).Contents (Elt Ideal)) (x1 x2 : (⟨S1600000, .i32⟩ : BufTy).Contents (Elt Ideal))
    (x3 x4 : (⟨S64x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal))
    (x9 x10 : (⟨S128x64, .f32⟩ : BufTy).Contents (Elt Ideal)) (x11 : (⟨S64, .f32⟩ : BufTy).Contents (Elt Ideal)) :
    val_main_v65 (F := Ideal) x0 x1 x2 x3 x4 x5 x6 x7 x8 x9 x10 x11
      = Cert.Sage.layer2 (val_main_v45 (F := Ideal) x0 x1 x2 x3 x4 x5 x6 x7 x8) (val_main_v58 (F := Ideal) x0 x1 x2 x3 x4 x5 x6 x7 x8) x9 x10 (val_main_v62 (F := Ideal) x11) := by
  funext i
  rw [val_main_v65_apply, val_main_v64_apply, val_main_v61_apply, val_main_v59_apply, val_main_v60_apply, val_main_v63_apply,
    val_main_call2_v0_apply, val_main_call2_cst_apply]
  rfl

end Cert.Sage.Ref

end
-- ==== Proof.Region0.lean ====
/-
  Region 0 (the first pallas_call), read as a value: whatever the TensorCore's buffers hold when the region is entered,
  its output array ends holding layer 0 of the four input arrays and the bias row.

  A grid point `t` works on rows `2000·t … 2000·t + 1999`: it loads that block of `h` and of `hn`, the whole weight
  matrices and the bias row, and stores `max(h_blk · ws + hn_blk · wn + b, 0)` (the bf16 casts are the identity on the
  extended reals, and a matmul into the zero accumulator is the plain sum over the contracted axis). Entry `(r, d)` of
  the block is therefore entry `(2000·t + r, d)` of the whole-array layer function, and the 50 blocks tile the array.
-/
import proofs.«136679_j50062138802388_1_alg».proof.Proof.KernelIdealFrameP
import proofs.«136679_j50062138802388_1_alg».proof.Proof.Layers
import Idealize.ShloMosaic.Lib.Pipeline.Value
import Idealize.ShloMosaic.Lib.ValueIdx
import Idealize.ShloMosaic.PureOps.Ideal.Laws

noncomputable section

namespace Cert.Sage.K0

open Idealize.ShloMosaic Idealize.ShloMosaic.TcCoe Idealize.SL.Sem
open Cert.KernelIdeal Cert.KernelIdeal.Gen Cert.KernelIdeal.GenP
open Idealize.ShloMosaic.Pipeline (Dat)

/-! ## The body's arithmetic at an entry of the block -/

/-- Row `j 0` of a 2000 × 64 block at column `k`. -/
abbrev brow (j : S2000x128.Idx) (k : Fin 64) : S2000x64.Idx := fun a => match a with
  | ⟨0, _⟩ => ⟨(j 0).val, (j 0).isLt⟩
  | ⟨1, _⟩ => ⟨k.val, k.isLt⟩
/-- Column `j 1` of the 64 × 128 weights at row `k`. -/
abbrev bcol (j : S2000x128.Idx) (k : Fin 64) : S64x128.Idx := fun a => match a with
  | ⟨0, _⟩ => ⟨k.val, k.isLt⟩
  | ⟨1, _⟩ => ⟨(j 1).val, (j 1).isLt⟩
/-- The bias row's entry under column `j 1`. -/
abbrev bbias (j : S2000x128.Idx) : S1x128.Idx := fun a => match a with
  | ⟨0, _⟩ => ⟨0, Nat.one_pos⟩
  | ⟨1, _⟩ => ⟨(j 1).val, (j 1).isLt⟩

theorem lhs_0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem lhs_1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
theorem rhs_0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
theorem rhs_1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- A block matmul into the zero accumulator, read at an entry: the sum over the 64 contracted features of the
    products of the row's and the column's entries. -/
theorem mm_apply {φ₁ φ₂ : FTy} (l : FVec Ideal S2000x64 φ₁) (r : FVec Ideal S64x128 φ₂) (j : S2000x128.Idx) :
    matmul dot_S2000x64_S64x128_S2000x128_1_0_0_1_n_n none l r (constant (F := Ideal) S2000x128 .f32 0x00000000#32) j
      = ∑ k : Fin 64, l (brow j k) * r (bcol j k) := by
  refine (Ideal.matmul_constant_zero_apply dot_S2000x64_S64x128_S2000x128_1_0_0_1_n_n none l r j).trans ?_
  rw [← Equiv.sum_comp (ValueIdx.contrEquiv1 dot_S2000x64_S64x128_S2000x128_1_0_0_1_n_n 64 rfl rfl).symm]
  refine Finset.sum_congr rfl fun k _ => ?_
  have hk := ValueIdx.contrEquiv1_symm_val dot_S2000x64_S64x128_S2000x128_1_0_0_1_n_n 64 rfl rfl k
  have el : dot_S2000x64_S64x128_S2000x128_1_0_0_1_n_n.lhsIdx j ((ValueIdx.contrEquiv1 dot_S2000x64_S64x128_S2000x128_1_0_0_1_n_n 64 rfl rfl).symm k) = brow j k := funext fun a => Fin.ext (by
    match a with
    | ⟨0, _⟩ => exact lhs_0 _ _
    | ⟨1, _⟩ => exact (lhs_1 _ _).trans hk)
  have er : dot_S2000x64_S64x128_S2000x128_1_0_0_1_n_n.rhsIdx j ((ValueIdx.contrEquiv1 dot_S2000x64_S64x128_S2000x128_1_0_0_1_n_n 64 rfl rfl).symm k) = bcol j k := funext fun a => Fin.ext (by
    match a with
    | ⟨0, _⟩ => exact (rhs_0 _ _).trans hk
    | ⟨1, _⟩ => exact rhs_1 _ _)
  rw [el, er]

/-- The bias row broadcast over the block's rows, read at an entry: the row's entry under that column. -/
theorem bias_apply (v : S1x128.Idx → EReal) (h : S1x128.Broadcasts S2000x128) (j : S2000x128.Idx) :
    broadcastTo S2000x128 v h j = v (bbias j) :=
  broadcastTo_apply v h j (bbias j) (fun a => match a with
    | ⟨0, _⟩ => by show 0 = if (1 : Nat) = 1 then 0 else _; rw [if_pos rfl]
    | ⟨1, _⟩ => by show (j 1).val = if (128 : Nat) = 1 then 0 else (j 1).val; rw [if_neg (by decide)])

/-- The stored value at an entry of the block, from the loaded blocks. -/
theorem pay_apply (x0 x1 : Vec Ideal S2000x64 .f32) (x2 x3 : Vec Ideal S64x128 .f32) (x4 : Vec Ideal S1x128 .f32) (j : S2000x128.Idx) :
    k0_pay1 (F := Ideal) x0 x1 x2 x3 x4 j
      = max (((∑ k : Fin 64, x0 (brow j k) * x2 (bcol j k)) + (∑ k : Fin 64, x1 (brow j k) * x3 (bcol j k))) + x4 (bbias j))
          (Ideal.ofBits .f32 0x00000000#32) := by
  unfold k0_pay1
  show max ((matmul dot_S2000x64_S64x128_S2000x128_1_0_0_1_n_n none (truncf .bf16 x0 _) (truncf .bf16 x2 _) (constant (F := Ideal) S2000x128 .f32 0x00000000#32) j
      + matmul dot_S2000x64_S64x128_S2000x128_1_0_0_1_n_n none (truncf .bf16 (shapeCast S2000x64 x1 _) _) (truncf .bf16 x3 _) (constant (F := Ideal) S2000x128 .f32 0x00000000#32) j)
      + broadcastTo S2000x128 (shapeCast S1x128 x4 _) _ j) (Ideal.ofBits .f32 0x00000000#32) = _
  rw [mm_apply, mm_apply, shapeCast_self, shapeCast_self, bias_apply]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the 50 grid points: the two feature windows move down the rows with the
    output window, in step; the weights and the bias stay at their one block; the output's block row is the point. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `j 0` of point `t`'s block of the node features is row `j 0` of the output's block, in the whole array. -/
theorem read_h (c : Dev nD) (t : Fin cfg0.N) (j : S2000x128.Idx) (k : Fin 64) :
    iblk0 V c 0 t (brow j k) = V c main_arg0 (Cert.Sage.row0 (((cfg0.win 5).blk t).view.emb j) k) := by
  obtain ⟨e0, e1, -, -, -, -, -, -, -, -, -, -⟩ := idx_facts t
  show V c main_arg0 (((cfg0.win 0).blk t).view.emb (brow j k)) = _
  refine congrArg (V c main_arg0) (funext fun a => Fin.ext ?_)
  match a with
  | ⟨0, _⟩ => show win0_0.index t (0 : Fin 2) * 2000 + 1 * (j 0).val = win0_5.index t (0 : Fin 2) * 2000 + 1 * (j 0).val; omega
  | ⟨1, _⟩ => show win0_0.index t (1 : Fin 2) * 64 + 1 * k.val = k.val; omega

/-- The same for the aggregated neighbour features. -/
theorem read_hn (c : Dev nD) (t : Fin cfg0.N) (j : S2000x128.Idx) (k : Fin 64) :
    iblk0 V c 1 t (brow j k) = V c main_v18 (Cert.Sage.row0 (((cfg0.win 5).blk t).view.emb j) k) := by
  obtain ⟨-, -, e0, e1, -, -, -, -, -, -, -, -⟩ := idx_facts t
  show V c main_v18 (((cfg0.win 1).blk t).view.emb (brow j k)) = _
  refine congrArg (V c main_v18) (funext fun a => Fin.ext ?_)
  match a with
  | ⟨0, _⟩ => show win0_1.index t (0 : Fin 2) * 2000 + 1 * (j 0).val = win0_5.index t (0 : Fin 2) * 2000 + 1 * (j 0).val; omega
  | ⟨1, _⟩ => show win0_1.index t (1 : Fin 2) * 64 + 1 * k.val = k.val; omega

/-- The self weights' one block is the whole matrix: column `j 1` of the block is column `j 1` of the output. -/
theorem read_ws (c : Dev nD) (t : Fin cfg0.N) (j : S2000x128.Idx) (k : Fin 64) :
    iblk0 V c 2 t (bcol j k) = V c main_arg3 (Cert.Sage.col0 (((cfg0.win 5).blk t).view.emb j) k) := by
  obtain ⟨-, -, -, -, e0, e1, -, -, -, -, -, e5⟩ := idx_facts t
  show V c main_arg3 (((cfg0.win 2).blk t).view.emb (bcol j k)) = _
  refine congrArg (V c main_arg3) (funext fun a => Fin.ext ?_)
  match a with
  | ⟨0, _⟩ => show win0_2.index t (0 : Fin 2) * 64 + 1 * k.val = k.val; omega
  | ⟨1, _⟩ => show win0_2.index t (1 : Fin 2) * 128 + 1 * (j 1).val = win0_5.index t (1 : Fin 2) * 128 + 1 * (j 1).val; omega

/-- The same for the neighbour weights. -/
theorem read_wn (c : Dev nD) (t : Fin cfg0.N) (j : S2000x128.Idx) (k : Fin 64) :
    iblk0 V c 3 t (bcol j k) = V c main_arg4 (Cert.Sage.col0 (((cfg0.win 5).blk t).view.emb j) k) := by
  obtain ⟨-, -, -, -, -, -, e0, e1, -, -, -, e5⟩ := idx_facts t
  show V c main_arg4 (((cfg0.win 3).blk t).view.emb (bcol j k)) = _
  refine congrArg (V c main_arg4) (funext fun a => Fin.ext ?_)
  match a with
  | ⟨0, _⟩ => show win0_3.index t (0 : Fin 2) * 64 + 1 * k.val = k.val; omega
  | ⟨1, _⟩ => show win0_3.index t (1 : Fin 2) * 128 + 1 * (j 1).val = win0_5.index t (1 : Fin 2) * 128 + 1 * (j 1).val; omega

/-- The bias row's one block is the whole row. -/
theorem read_b (c : Dev nD) (t : Fin cfg0.N) (j : S2000x128.Idx) :
    iblk0 V c 4 t (bbias j) = V c main_v19 (Cert.Sage.bias0 (((cfg0.win 5).blk t).view.emb j)) := by
  obtain ⟨-, -, -, -, -, -, -, -, e0, e1, -, e5⟩ := idx_facts t
  show V c main_v19 (((cfg0.win 4).blk t).view.emb (bbias j)) = _
  refine congrArg (V c main_v19) (funext fun a => Fin.ext ?_)
  match a with
  | ⟨0, _⟩ => show win0_4.index t (0 : Fin 2) * 1 + 1 * 0 = 0; omega
  | ⟨1, _⟩ => show win0_4.index t (1 : Fin 2) * 128 + 1 * (j 1).val = win0_5.index t (1 : Fin 2) * 128 + 1 * (j 1).val; omega

/-- WHAT POINT `t` WRITES BACK is block `t` of layer 0 of the arrays as the region finds them. -/
theorem flushed_eq (c : Dev nD) (t : Fin cfg0.N) :
    (dat0 V c).flushed 5 t = ((cfg0.win 5).blk t).view.read (Elt Ideal)
      (Cert.Sage.layer0 (V c main_arg0) (V c main_v18) (V c main_arg3) (V c main_arg4) (V c main_v19)) := by
  show (cfg0.win 5).cut (grid0.coords t) ((dat0 V c).after 5 t) = _
  rw [after0_5]
  unfold out0_5
  rw [View.canon_unit_zero hz]
  simp only [View.ld_unit_zero (S := S2000x64) hz, View.ld_unit_zero (S := S64x128) hz, View.ld_unit_zero (S := S1x128) hz]
  funext j
  refine (pay_apply (iblk0 V c 0 t) (iblk0 V c 1 t) (iblk0 V c 2 t) (iblk0 V c 3 t) (iblk0 V c 4 t) j).trans ?_
  simp only [read_h V c t j, read_hn V c t j, read_ws V c t j, read_wn V c t j, read_b V c t j]
  rfl

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v20).slice (win0_5.rect t)).set ↔ _
  rw [View.set_slice_whole, Rect.mem_set_unit]
  exact Iff.rfl

/-- Every entry of the output array lies in the block of the point that owns its row: point `row / 2000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨-, -, -, -, -, -, -, -, -, -, e4, e5⟩ := idx_facts t
  have e4' : win0_5.index t (0 : Fin 2) = (i 0).val / 2000 := e4
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- THE ARRAY after the region: layer 0 of the arrays the region was entered with. -/
theorem value (c : Dev nD) :
    (dat0 V c).arrAt 5 cfg0.N = Cert.Sage.layer0 (V c main_arg0) (V c main_v18) (V c main_arg3) (V c main_arg4) (V c main_v19) :=
  (dat0 V c).arrAt_eq_of_cover 5 _ (fun t _ => flushed_eq V c t) cover

end Cert.Sage.K0

end
-- ==== Proof.Region1.lean ====
/-
  Region 1 (the second pallas_call), read as a value: whatever the TensorCore's buffers hold when the region is entered,
  its output array ends holding layer 1 of the four input arrays and the bias row.

  A grid point `t` works on rows `2000·t … 2000·t + 1999`: it loads that block of `h` and of `hn` (both 128 features
  wide here), the whole 128 × 128 weight matrices and the bias row, and stores `max(h_blk · ws + hn_blk · wn + b, 0)`
  (the bf16 casts and the same-shape casts are the identity on the extended reals, and a matmul into the zero accumulator
  is the plain sum over the contracted axis). Entry `(r, d)` of the block is entry `(2000·t + r, d)` of the whole-array
  layer function, and the 50 blocks tile the array.
-/
import proofs.«136679_j50062138802388_1_alg».proof.Proof.KernelIdealFrameP
import proofs.«136679_j50062138802388_1_alg».proof.Proof.Layers
import Idealize.ShloMosaic.Lib.Pipeline.Value
import Idealize.ShloMosaic.Lib.ValueIdx
import Idealize.ShloMosaic.PureOps.Ideal.Laws

noncomputable section

namespace Cert.Sage.K1

open Idealize.ShloMosaic Idealize.ShloMosaic.TcCoe Idealize.SL.Sem
open Cert.KernelIdeal Cert.KernelIdeal.Gen Cert.KernelIdeal.GenP
open Idealize.ShloMosaic.Pipeline (Dat)

/-! ## The body's arithmetic at an entry of the block -/

/-- Row `j 0` of a 2000 × 128 block at column `k`. -/
abbrev brow (j : S2000x128.Idx) (k : Fin 128) : S2000x128.Idx := fun a => match a with
  | ⟨0, _⟩ => ⟨(j 0).val, (j 0).isLt⟩
  | ⟨1, _⟩ => ⟨k.val, k.isLt⟩
/-- Column `j 1` of the 128 × 128 weights at row `k`. -/
abbrev bcol (j : S2000x128.Idx) (k : Fin 128) : S128x128.Idx := fun a => match a with
  | ⟨0, _⟩ => ⟨k.val, k.isLt⟩
  | ⟨1, _⟩ => ⟨(j 1).val, (j 1).isLt⟩
/-- The bias row's entry under column `j 1`. -/
abbrev bbias (j : S2000x128.Idx) : S1x128.Idx := fun a => match a with
  | ⟨0, _⟩ => ⟨0, Nat.one_pos⟩
  | ⟨1, _⟩ => ⟨(j 1).val, (j 1).isLt⟩

theorem lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block matmul into the zero accumulator, read at an entry: the sum over the 128 contracted features of the
    products of the row's and the column's entries. -/
theorem mm_apply {φ₁ φ₂ : FTy} (l : FVec Ideal S2000x128 φ₁) (r : FVec Ideal S128x128 φ₂) (j : S2000x128.Idx) :
    matmul dot_S2000x128_S128x128_S2000x128_1_0_0_1_n_n none l r (constant (F := Ideal) S2000x128 .f32 0x00000000#32) j
      = ∑ k : Fin 128, l (brow j k) * r (bcol j k) := by
  refine (Ideal.matmul_constant_zero_apply dot_S2000x128_S128x128_S2000x128_1_0_0_1_n_n none l r j).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = brow j k := funext fun a => Fin.ext (by
    match a with
    | ⟨0, _⟩ => exact lhs_0 _ _
    | ⟨1, _⟩ => exact (lhs_1 _ _).trans hk)
  have er : dot_S2000x128_S128x128_S2000x128_1_0_0_1_n_n.rhsIdx j ((ValueIdx.contrEquiv1 dot_S2000x128_S128x128_S2000x128_1_0_0_1_n_n 128 rfl rfl).symm k) = bcol j k := funext fun a => Fin.ext (by
    match a with
    | ⟨0, _⟩ => exact (rhs_0 _ _).trans hk
    | ⟨1, _⟩ => exact rhs_1 _ _)
  rw [el, er]

/-- The bias row broadcast over the block's rows, read at an entry: the row's entry under that column. -/
theorem bias_apply (v : S1x128.Idx → EReal) (h : S1x128.Broadcasts S2000x128) (j : S2000x128.Idx) :
    broadcastTo S2000x128 v h j = v (bbias j) :=
  broadcastTo_apply v h j (bbias j) (fun a => match a with
    | ⟨0, _⟩ => by show 0 = if (1 : Nat) = 1 then 0 else _; rw [if_pos rfl]
    | ⟨1, _⟩ => by show (j 1).val = if (128 : Nat) = 1 then 0 else (j 1).val; rw [if_neg (by decide)])

/-- The stored value at an entry of the block, from the loaded blocks. -/
theorem pay_apply (x0 x1 : Vec Ideal S2000x128 .f32) (x2 x3 : Vec Ideal S128x128 .f32) (x4 : Vec Ideal S1x128 .f32) (j : S2000x128.Idx) :
    k1_pay1 (F := Ideal) x0 x1 x2 x3 x4 j
      = max (((∑ k : Fin 128, x0 (brow j k) * x2 (bcol j k)) + (∑ k : Fin 128, x1 (brow j k) * x3 (bcol j k))) + x4 (bbias j))
          (Ideal.ofBits .f32 0x00000000#32) := by
  unfold k1_pay1
  show max ((matmul dot_S2000x128_S128x128_S2000x128_1_0_0_1_n_n none (truncf .bf16 (shapeCast S2000x128 x0 _) _) (truncf .bf16 x2 _) (constant (F := Ideal) S2000x128 .f32 0x00000000#32) j
      + matmul dot_S2000x128_S128x128_S2000x128_1_0_0_1_n_n none (truncf .bf16 (shapeCast S2000x128 x1 _) _) (truncf .bf16 x3 _) (constant (F := Ideal) S2000x128 .f32 0x00000000#32) j)
      + broadcastTo S2000x128 (shapeCast S1x128 x4 _) _ j) (Ideal.ofBits .f32 0x00000000#32) = _
  rw [mm_apply, mm_apply, shapeCast_self, shapeCast_self, shapeCast_self, bias_apply]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the 50 grid points: the two feature windows move down the rows with the
    output window, in step; the weights and the bias stay at their one block; the output's block row is the point. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `j 0` of point `t`'s block of the previous layer's result is row `j 0` of the output's block, in the whole array. -/
theorem read_h (c : Dev nD) (t : Fin cfg1.N) (j : S2000x128.Idx) (k : Fin 128) :
    iblk1 V c 0 t (brow j k) = V c main_v20 (Cert.Sage.row1 (((cfg1.win 5).blk t).view.emb j) k) := by
  obtain ⟨e0, e1, -, -, -, -, -, -, -, -, -, -⟩ := idx_facts t
  show V c main_v20 (((cfg1.win 0).blk t).view.emb (brow j k)) = _
  refine congrArg (V c main_v20) (funext fun a => Fin.ext ?_)
  match a with
  | ⟨0, _⟩ => show win1_0.index t (0 : Fin 2) * 2000 + 1 * (j 0).val = win1_5.index t (0 : Fin 2) * 2000 + 1 * (j 0).val; omega
  | ⟨1, _⟩ => show win1_0.index t (1 : Fin 2) * 128 + 1 * k.val = k.val; omega

/-- The same for the aggregated neighbour features. -/
theorem read_hn (c : Dev nD) (t : Fin cfg1.N) (j : S2000x128.Idx) (k : Fin 128) :
    iblk1 V c 1 t (brow j k) = V c main_v33 (Cert.Sage.row1 (((cfg1.win 5).blk t).view.emb j) k) := by
  obtain ⟨-, -, e0, e1, -, -, -, -, -, -, -, -⟩ := idx_facts t
  show V c main_v33 (((cfg1.win 1).blk t).view.emb (brow j k)) = _
  refine congrArg (V c main_v33) (funext fun a => Fin.ext ?_)
  match a with
  | ⟨0, _⟩ => show win1_1.index t (0 : Fin 2) * 2000 + 1 * (j 0).val = win1_5.index t (0 : Fin 2) * 2000 + 1 * (j 0).val; omega
  | ⟨1, _⟩ => show win1_1.index t (1 : Fin 2) * 128 + 1 * k.val = k.val; omega

/-- The self weights' one block is the whole matrix: column `j 1` of the block is column `j 1` of the output. -/
theorem read_ws (c : Dev nD) (t : Fin cfg1.N) (j : S2000x128.Idx) (k : Fin 128) :
    iblk1 V c 2 t (bcol j k) = V c main_arg6 (Cert.Sage.col1 (((cfg1.win 5).blk t).view.emb j) k) := by
  obtain ⟨-, -, -, -, e0, e1, -, -, -, -, -, e5⟩ := idx_facts t
  show V c main_arg6 (((cfg1.win 2).blk t).view.emb (bcol j k)) = _
  refine congrArg (V c main_arg6) (funext fun a => Fin.ext ?_)
  match a with
  | ⟨0, _⟩ => show win1_2.index t (0 : Fin 2) * 128 + 1 * k.val = k.val; omega
  | ⟨1, _⟩ => show win1_2.index t (1 : Fin 2) * 128 + 1 * (j 1).val = win1_5.index t (1 : Fin 2) * 128 + 1 * (j 1).val; omega

/-- The same for the neighbour weights. -/
theorem read_wn (c : Dev nD) (t : Fin cfg1.N) (j : S2000x128.Idx) (k : Fin 128) :
    iblk1 V c 3 t (bcol j k) = V c main_arg7 (Cert.Sage.col1 (((cfg1.win 5).blk t).view.emb j) k) := by
  obtain ⟨-, -, -, -, -, -, e0, e1, -, -, -, e5⟩ := idx_facts t
  show V c main_arg7 (((cfg1.win 3).blk t).view.emb (bcol j k)) = _
  refine congrArg (V c main_arg7) (funext fun a => Fin.ext ?_)
  match a with
  | ⟨0, _⟩ => show win1_3.index t (0 : Fin 2) * 128 + 1 * k.val = k.val; omega
  | ⟨1, _⟩ => show win1_3.index t (1 : Fin 2) * 128 + 1 * (j 1).val = win1_5.index t (1 : Fin 2) * 128 + 1 * (j 1).val; omega

/-- The bias row's one block is the whole row. -/
theorem read_b (c : Dev nD) (t : Fin cfg1.N) (j : S2000x128.Idx) :
    iblk1 V c 4 t (bbias j) = V c main_v34 (Cert.Sage.bias0 (((cfg1.win 5).blk t).view.emb j)) := by
  obtain ⟨-, -, -, -, -, -, -, -, e0, e1, -, e5⟩ := idx_facts t
  show V c main_v34 (((cfg1.win 4).blk t).view.emb (bbias j)) = _
  refine congrArg (V c main_v34) (funext fun a => Fin.ext ?_)
  match a with
  | ⟨0, _⟩ => show win1_4.index t (0 : Fin 2) * 1 + 1 * 0 = 0; omega
  | ⟨1, _⟩ => show win1_4.index t (1 : Fin 2) * 128 + 1 * (j 1).val = win1_5.index t (1 : Fin 2) * 128 + 1 * (j 1).val; omega

/-- WHAT POINT `t` WRITES BACK is block `t` of layer 1 of the arrays as the region finds them. -/
theorem flushed_eq (c : Dev nD) (t : Fin cfg1.N) :
    (dat1 V c).flushed 5 t = ((cfg1.win 5).blk t).view.read (Elt Ideal)
      (Cert.Sage.layer1 (V c main_v20) (V c main_v33) (V c main_arg6) (V c main_arg7) (V c main_v34)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  funext j
  refine (pay_apply (iblk1 V c 0 t) (iblk1 V c 1 t) (iblk1 V c 2 t) (iblk1 V c 3 t) (iblk1 V c 4 t) j).trans ?_
  simp only [read_h V c t j, read_hn V c t j, read_ws V c t j, read_wn V c t j, read_b V c t j]
  rfl

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v35).slice (win1_5.rect t)).set ↔ _
  rw [View.set_slice_whole, Rect.mem_set_unit]
  exact Iff.rfl

/-- Every entry of the output array lies in the block of the point that owns its row: point `row / 2000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  let t : Fin cfg1.N := ⟨(i 0).val / 2000, by rw [hN]; omega⟩
  obtain ⟨-, -, -, -, -, -, -, -, -, -, e4, e5⟩ := idx_facts t
  have e4' : win1_5.index t (0 : Fin 2) = (i 0).val / 2000 := e4
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- THE ARRAY after the region: layer 1 of the arrays the region was entered with. -/
theorem value (c : Dev nD) :
    (dat1 V c).arrAt 5 cfg1.N = Cert.Sage.layer1 (V c main_v20) (V c main_v33) (V c main_arg6) (V c main_arg7) (V c main_v34) :=
  (dat1 V c).arrAt_eq_of_cover 5 _ (fun t _ => flushed_eq V c t) cover

end Cert.Sage.K1

end
-- ==== Proof.Region2.lean ====
/-
  Region 2 (the third pallas_call), read as a value: whatever the TensorCore's buffers hold when the region is entered,
  its output array ends holding layer 2 of the four input arrays and the bias row.

  A grid point `t` works on rows `2000·t … 2000·t + 1999`: it loads that block of `h` and of `hn` (128 features wide),
  the whole 128 × 64 weight matrices and the 1 × 64 bias row, and stores `max(h_blk · ws + hn_blk · wn + b, 0)` (the bf16
  casts and the same-shape casts are the identity on the extended reals, and a matmul into the zero accumulator is the
  plain sum over the contracted axis). Entry `(r, d)` of the block is entry `(2000·t + r, d)` of the whole-array layer
  function, and the 50 blocks tile the 100000 × 64 array.
-/
import proofs.«136679_j50062138802388_1_alg».proof.Proof.KernelIdealFrameP
import proofs.«136679_j50062138802388_1_alg».proof.Proof.Layers
import Idealize.ShloMosaic.Lib.Pipeline.Value
import Idealize.ShloMosaic.Lib.ValueIdx
import Idealize.ShloMosaic.PureOps.Ideal.Laws

noncomputable section

namespace Cert.Sage.K2

open Idealize.ShloMosaic Idealize.ShloMosaic.TcCoe Idealize.SL.Sem
open Cert.KernelIdeal Cert.KernelIdeal.Gen Cert.KernelIdeal.GenP
open Idealize.ShloMosaic.Pipeline (Dat)

/-! ## The body's arithmetic at an entry of the block -/

/-- Row `j 0` of a 2000 × 128 block at column `k`. -/
abbrev brow (j : S2000x64.Idx) (k : Fin 128) : S2000x128.Idx := fun a => match a with
  | ⟨0, _⟩ => ⟨(j 0).val, (j 0).isLt⟩
  | ⟨1, _⟩ => ⟨k.val, k.isLt⟩
/-- Column `j 1` of the 128 × 64 weights at row `k`. -/
abbrev bcol (j : S2000x64.Idx) (k : Fin 128) : S128x64.Idx := fun a => match a with
  | ⟨0, _⟩ => ⟨k.val, k.isLt⟩
  | ⟨1, _⟩ => ⟨(j 1).val, (j 1).isLt⟩
/-- The bias row's entry under column `j 1`. -/
abbrev bbias (j : S2000x64.Idx) : S1x64.Idx := fun a => match a with
  | ⟨0, _⟩ => ⟨0, Nat.one_pos⟩
  | ⟨1, _⟩ => ⟨(j 1).val, (j 1).isLt⟩

theorem lhs_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- A block matmul into the zero accumulator, read at an entry: the sum over the 128 contracted features of the
    products of the row's and the column's entries. -/
theorem mm_apply {φ₁ φ₂ : FTy} (l : FVec Ideal S2000x128 φ₁) (r : FVec Ideal S128x64 φ₂) (j : S2000x64.Idx) :
    matmul dot_S2000x128_S128x64_S2000x64_1_0_0_1_n_n none l r (constant (F := Ideal) S2000x64 .f32 0x00000000#32) j
      = ∑ k : Fin 128, l (brow j k) * r (bcol j k) := by
  refine (Ideal.matmul_constant_zero_apply dot_S2000x128_S128x64_S2000x64_1_0_0_1_n_n none l r j).trans ?_
  rw [← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx j ((ValueIdx.contrEquiv1 dot_S2000x128_S128x64_S2000x64_1_0_0_1_n_n 128 rfl rfl).symm k) = brow j k := funext fun a => Fin.ext (by
    match a with
    | ⟨0, _⟩ => exact lhs_0 _ _
    | ⟨1, _⟩ => exact (lhs_1 _ _).trans hk)
  have er : dot_S2000x128_S128x64_S2000x64_1_0_0_1_n_n.rhsIdx j ((ValueIdx.contrEquiv1 dot_S2000x128_S128x64_S2000x64_1_0_0_1_n_n 128 rfl rfl).symm k) = bcol j k := funext fun a => Fin.ext (by
    match a with
    | ⟨0, _⟩ => exact (rhs_0 _ _).trans hk
    | ⟨1, _⟩ => exact rhs_1 _ _)
  rw [el, er]

/-- The bias row broadcast over the block's rows, read at an entry: the row's entry under that column. -/
theorem bias_apply (v : S1x64.Idx → EReal) (h : S1x64.Broadcasts S2000x64) (j : S2000x64.Idx) :
    broadcastTo S2000x64 v h j = v (bbias j) :=
  broadcastTo_apply v h j (bbias j) (fun a => match a with
    | ⟨0, _⟩ => by show 0 = if (1 : Nat) = 1 then 0 else _; rw [if_pos rfl]
    | ⟨1, _⟩ => by show (j 1).val = if (64 : Nat) = 1 then 0 else (j 1).val; rw [if_neg (by decide)])

/-- The stored value at an entry of the block, from the loaded blocks. -/
theorem pay_apply (x0 x1 : Vec Ideal S2000x128 .f32) (x2 x3 : Vec Ideal S128x64 .f32) (x4 : Vec Ideal S1x64 .f32) (j : S2000x64.Idx) :
    k2_pay1 (F := Ideal) x0 x1 x2 x3 x4 j
      = max (((∑ k : Fin 128, x0 (brow j k) * x2 (bcol j k)) + (∑ k : Fin 128, x1 (brow j k) * x3 (bcol j k))) + x4 (bbias j))
          (Ideal.ofBits .f32 0x00000000#32) := by
  unfold k2_pay1
  show max ((matmul dot_S2000x128_S128x64_S2000x64_1_0_0_1_n_n none (truncf .bf16 (shapeCast S2000x128 x0 _) _) (truncf .bf16 x2 _) (constant (F := Ideal) S2000x64 .f32 0x00000000#32) j
      + matmul dot_S2000x128_S128x64_S2000x64_1_0_0_1_n_n none (truncf .bf16 (shapeCast S2000x128 x1 _) _) (truncf .bf16 x3 _) (constant (F := Ideal) S2000x64 .f32 0x00000000#32) j)
      + broadcastTo S2000x64 (shapeCast S1x64 x4 _) _ j) (Ideal.ofBits .f32 0x00000000#32) = _
  rw [mm_apply, mm_apply, shapeCast_self, shapeCast_self, shapeCast_self, bias_apply]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the 50 grid points: the two feature windows move down the rows with the
    output window, in step; the weights and the bias stay at their one block; the output's block row is the point. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `j 0` of point `t`'s block of the previous layer's result is row `j 0` of the output's block, in the whole array. -/
theorem read_h (c : Dev nD) (t : Fin cfg2.N) (j : S2000x64.Idx) (k : Fin 128) :
    iblk2 V c 0 t (brow j k) = V c main_v35 (Cert.Sage.row2 (((cfg2.win 5).blk t).view.emb j) k) := by
  obtain ⟨e0, e1, -, -, -, -, -, -, -, -, -, -⟩ := idx_facts t
  show V c main_v35 (((cfg2.win 0).blk t).view.emb (brow j k)) = _
  refine congrArg (V c main_v35) (funext fun a => Fin.ext ?_)
  match a with
  | ⟨0, _⟩ => show win2_0.index t (0 : Fin 2) * 2000 + 1 * (j 0).val = win2_5.index t (0 : Fin 2) * 2000 + 1 * (j 0).val; omega
  | ⟨1, _⟩ => show win2_0.index t (1 : Fin 2) * 128 + 1 * k.val = k.val; omega

/-- The same for the aggregated neighbour features. -/
theorem read_hn (c : Dev nD) (t : Fin cfg2.N) (j : S2000x64.Idx) (k : Fin 128) :
    iblk2 V c 1 t (brow j k) = V c main_v48 (Cert.Sage.row2 (((cfg2.win 5).blk t).view.emb j) k) := by
  obtain ⟨-, -, e0, e1, -, -, -, -, -, -, -, -⟩ := idx_facts t
  show V c main_v48 (((cfg2.win 1).blk t).view.emb (brow j k)) = _
  refine congrArg (V c main_v48) (funext fun a => Fin.ext ?_)
  match a with
  | ⟨0, _⟩ => show win2_1.index t (0 : Fin 2) * 2000 + 1 * (j 0).val = win2_5.index t (0 : Fin 2) * 2000 + 1 * (j 0).val; omega
  | ⟨1, _⟩ => show win2_1.index t (1 : Fin 2) * 128 + 1 * k.val = k.val; omega

/-- The self weights' one block is the whole matrix: column `j 1` of the block is column `j 1` of the output. -/
theorem read_ws (c : Dev nD) (t : Fin cfg2.N) (j : S2000x64.Idx) (k : Fin 128) :
    iblk2 V c 2 t (bcol j k) = V c main_arg9 (Cert.Sage.col2 (((cfg2.win 5).blk t).view.emb j) k) := by
  obtain ⟨-, -, -, -, e0, e1, -, -, -, -, -, e5⟩ := idx_facts t
  show V c main_arg9 (((cfg2.win 2).blk t).view.emb (bcol j k)) = _
  refine congrArg (V c main_arg9) (funext fun a => Fin.ext ?_)
  match a with
  | ⟨0, _⟩ => show win2_2.index t (0 : Fin 2) * 128 + 1 * k.val = k.val; omega
  | ⟨1, _⟩ => show win2_2.index t (1 : Fin 2) * 64 + 1 * (j 1).val = win2_5.index t (1 : Fin 2) * 64 + 1 * (j 1).val; omega

/-- The same for the neighbour weights. -/
theorem read_wn (c : Dev nD) (t : Fin cfg2.N) (j : S2000x64.Idx) (k : Fin 128) :
    iblk2 V c 3 t (bcol j k) = V c main_arg10 (Cert.Sage.col2 (((cfg2.win 5).blk t).view.emb j) k) := by
  obtain ⟨-, -, -, -, -, -, e0, e1, -, -, -, e5⟩ := idx_facts t
  show V c main_arg10 (((cfg2.win 3).blk t).view.emb (bcol j k)) = _
  refine congrArg (V c main_arg10) (funext fun a => Fin.ext ?_)
  match a with
  | ⟨0, _⟩ => show win2_3.index t (0 : Fin 2) * 128 + 1 * k.val = k.val; omega
  | ⟨1, _⟩ => show win2_3.index t (1 : Fin 2) * 64 + 1 * (j 1).val = win2_5.index t (1 : Fin 2) * 64 + 1 * (j 1).val; omega

/-- The bias row's one block is the whole row. -/
theorem read_b (c : Dev nD) (t : Fin cfg2.N) (j : S2000x64.Idx) :
    iblk2 V c 4 t (bbias j) = V c main_v49 (Cert.Sage.bias2 (((cfg2.win 5).blk t).view.emb j)) := by
  obtain ⟨-, -, -, -, -, -, -, -, e0, e1, -, e5⟩ := idx_facts t
  show V c main_v49 (((cfg2.win 4).blk t).view.emb (bbias j)) = _
  refine congrArg (V c main_v49) (funext fun a => Fin.ext ?_)
  match a with
  | ⟨0, _⟩ => show win2_4.index t (0 : Fin 2) * 1 + 1 * 0 = 0; omega
  | ⟨1, _⟩ => show win2_4.index t (1 : Fin 2) * 64 + 1 * (j 1).val = win2_5.index t (1 : Fin 2) * 64 + 1 * (j 1).val; omega

/-- WHAT POINT `t` WRITES BACK is block `t` of layer 2 of the arrays as the region finds them. -/
theorem flushed_eq (c : Dev nD) (t : Fin cfg2.N) :
    (dat2 V c).flushed 5 t = ((cfg2.win 5).blk t).view.read (Elt Ideal)
      (Cert.Sage.layer2 (V c main_v35) (V c main_v48) (V c main_arg9) (V c main_arg10) (V c main_v49)) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x64) hz, View.ld_unit_zero (S := S1x64) hz]
  funext j
  refine (pay_apply (iblk2 V c 0 t) (iblk2 V c 1 t) (iblk2 V c 2 t) (iblk2 V c 3 t) (iblk2 V c 4 t) j).trans ?_
  simp only [read_h V c t j, read_hn V c t j, read_ws V c t j, read_wn V c t j, read_b V c t j]
  rfl

/-- An index of the array is in point `t`'s block iff each coordinate is in the block's range on its axis. -/
theorem mem_blk (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v50).slice (win2_5.rect t)).set ↔ _
  rw [View.set_slice_whole, Rect.mem_set_unit]
  exact Iff.rfl

/-- Every entry of the output array lies in the block of the point that owns its row: point `row / 2000`. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 50 := N_2
  let t : Fin cfg2.N := ⟨(i 0).val / 2000, by rw [hN]; omega⟩
  obtain ⟨-, -, -, -, -, -, -, -, -, -, e4, e5⟩ := idx_facts t
  have e4' : win2_5.index t (0 : Fin 2) = (i 0).val / 2000 := e4
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 64 ≤ (i 1).val ∧ (i 1).val < win2_5.index t (1 : Fin 2) * 64 + 64; omega

/-- THE ARRAY after the region: layer 2 of the arrays the region was entered with. -/
theorem value (c : Dev nD) :
    (dat2 V c).arrAt 5 cfg2.N = Cert.Sage.layer2 (V c main_v35) (V c main_v48) (V c main_arg9) (V c main_arg10) (V c main_v49) :=
  (dat2 V c).arrAt_eq_of_cover 5 _ (fun t _ => flushed_eq V c t) cover

end Cert.Sage.K2

end
-- ==== Proof.Chain.lean ====
/-
  The kernel program's result, boundary by boundary.

  @main is three stretches of host operations, each followed by a pallas_call. Write `A0 … A11` for the argument arrays.
  A stretch computes, from the previous layer's result `h`, the aggregated neighbour features: the rows of `h` gathered
  at the (wrapped) source indices, scatter-added at the destination indices and divided by the clamped in-degree; it
  also lays the layer's bias out as a row. Those are the very operations the reference applies, so each stretch's value
  is the reference's own stage of the same name applied to the same arrays: the two terms are compared whole and the
  gather and scatter are never opened. A region then writes the layer function of its five input arrays (Region0/1/2),
  which is the reference's next stage (RefValue). A buffer that a stretch does not write and a region does not output
  keeps its contents, so the arguments and the in-degree walk through every boundary unchanged.

  Reading the six boundaries in order gives: the result array after the last region is the reference's result stage of
  the argument arrays.
-/
import proofs.«136679_j50062138802388_1_alg».proof.Proof.KernelIdealFrameP
import proofs.«136679_j50062138802388_1_alg».proof.Proof.Gen.ReferenceIdeal.Read
import proofs.«136679_j50062138802388_1_alg».proof.Proof.RefValue
import proofs.«136679_j50062138802388_1_alg».proof.Proof.Region0
import proofs.«136679_j50062138802388_1_alg».proof.Proof.Region1
import proofs.«136679_j50062138802388_1_alg».proof.Proof.Region2
import Idealize.ShloMosaic.Lib.StableHlo.Run
import Idealize.ShloMosaic.Lib.ValueLayout

noncomputable section

namespace Cert.Sage.Chain

open Idealize.ShloMosaic Idealize.ShloMosaic.TcCoe Idealize.SL.Sem Idealize.ShloMosaic.StableHlo
open Cert.KernelIdeal Cert.KernelIdeal.Gen Cert.KernelIdeal.GenP
open Cert.ReferenceIdeal.Read (val_main_v5 val_main_v18 val_main_v22 val_main_v25 val_main_v38 val_main_v42 val_main_v45 val_main_v58 val_main_v62 val_main_v65)

variable (m : (ℓ : Loc nD τ sig) → Buf (Elt Ideal) ℓ) (ρ : Dev nD → PrngReg)

/-! ## Names: the argument arrays, and the reference's stages of them -/

abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)
abbrev A8 (c : Dev nD) := m ((c : Thread nD τ).loc main_arg8)
abbrev A9 (c : Dev nD) := m ((c : Thread nD τ).loc main_arg9)
abbrev A10 (c : Dev nD) := m ((c : Thread nD τ).loc main_arg10)
abbrev A11 (c : Dev nD) := m ((c : Thread nD τ).loc main_arg11)

/-- The clamped in-degree of every node. -/
abbrev Rdeg (c : Dev nD) := val_main_v5 (F := Ideal) (A2 m c)
/-- The aggregate of the input features. -/
abbrev R18 (c : Dev nD) := val_main_v18 (F := Ideal) (A0 m c) (A1 m c) (A2 m c)
/-- Layer 0's bias as a row. -/
abbrev R22 (c : Dev nD) := val_main_v22 (F := Ideal) (A5 m c)
/-- Layer 0's result. -/
abbrev R25 (c : Dev nD) := val_main_v25 (F := Ideal) (A0 m c) (A1 m c) (A2 m c) (A3 m c) (A4 m c) (A5 m c)
/-- The aggregate of layer 0's result. -/
abbrev R38 (c : Dev nD) := val_main_v38 (F := Ideal) (A0 m c) (A1 m c) (A2 m c) (A3 m c) (A4 m c) (A5 m c)
/-- Layer 1's bias as a row. -/
abbrev R42 (c : Dev nD) := val_main_v42 (F := Ideal) (A8 m c)
/-- Layer 1's result. -/
abbrev R45 (c : Dev nD) := val_main_v45 (F := Ideal) (A0 m c) (A1 m c) (A2 m c) (A3 m c) (A4 m c) (A5 m c) (A6 m c) (A7 m c) (A8 m c)
/-- The aggregate of layer 1's result. -/
abbrev R58 (c : Dev nD) := val_main_v58 (F := Ideal) (A0 m c) (A1 m c) (A2 m c) (A3 m c) (A4 m c) (A5 m c) (A6 m c) (A7 m c) (A8 m c)
/-- Layer 2's bias as a row. -/
abbrev R62 (c : Dev nD) := val_main_v62 (F := Ideal) (A11 m c)
/-- Layer 2's result: the reference's result. -/
abbrev R65 (c : Dev nD) := val_main_v65 (F := Ideal) (A0 m c) (A1 m c) (A2 m c) (A3 m c) (A4 m c) (A5 m c) (A6 m c) (A7 m c) (A8 m c) (A9 m c) (A10 m c) (A11 m c)

/-! ## A bias laid out as a row -/

/-- A length-128 vector reshaped to a 1 × 128 row is the row a broadcast along axis 1 makes of it. -/
theorem row128 (x : S128.Idx → EReal) (h : S128.ShapeCasts S1x128) :
    (fun i => shapeCast S1x128 x h i) = val_main_v22 (F := Ideal) x := by
  funext i
  rw [Cert.ReferenceIdeal.Read.val_main_v22_apply]
  obtain ⟨u, q, rfl⟩ : ∃ (u : Fin 1) (q : Fin 128), i = ValueIdx.ix2 u q := ⟨i 0, i 1, ValueIdx.eq_ix2 i⟩
  refine (ValueIdx.shapeCast_a_1a_apply x h u q).trans ?_
  refine congrArg x (funext fun a => ?_)
  match a with
  | ⟨0, _⟩ => rfl

/-- The same for a length-64 vector and a 1 × 64 row. -/
theorem row64 (x : S64.Idx → EReal) (h : S64.ShapeCasts S1x64) :
    (fun i => shapeCast S1x64 x h i) = val_main_v62 (F := Ideal) x := by
  funext i
  rw [Cert.ReferenceIdeal.Read.val_main_v62_apply]
  obtain ⟨u, q, rfl⟩ : ∃ (u : Fin 1) (q : Fin 64), i = ValueIdx.ix2 u q := ⟨i 0, i 1, ValueIdx.eq_ix2 i⟩
  refine (ValueIdx.shapeCast_a_1a_apply x h u q).trans ?_
  refine congrArg x (funext fun a => ?_)
  match a with
  | ⟨0, _⟩ => rfl

/-! ## Boundary 1: after the first stretch (region 0's entry) -/

theorem V1_arg0 (c : Dev nD) : V1 m ρ c main_arg0 = A0 m c := by
  show StableHlo.after hostOps0 (W0 m ρ c) (Proc.devRef .tc main_arg0) = _
  after_results
theorem V1_arg3 (c : Dev nD) : V1 m ρ c main_arg3 = A3 m c := by
  show StableHlo.after hostOps0 (W0 m ρ c) (Proc.devRef .tc main_arg3) = _
  after_results
theorem V1_arg4 (c : Dev nD) : V1 m ρ c main_arg4 = A4 m c := by
  show StableHlo.after hostOps0 (W0 m ρ c) (Proc.devRef .tc main_arg4) = _
  after_results
set_option maxHeartbeats 2000000 in
theorem V1_v18 (c : Dev nD) : V1 m ρ c main_v18 = R18 m c := by
  show StableHlo.after hostOps0 (W0 m ρ c) (Proc.devRef .tc main_v18) = _
  after_results_simp
  rfl
theorem V1_v19 (c : Dev nD) : V1 m ρ c main_v19 = R22 m c := by
  show StableHlo.after hostOps0 (W0 m ρ c) (Proc.devRef .tc main_v19) = _
  after_results
  exact row128 _ _

theorem W1_arg1 (c : Dev nD) : W1 m ρ c (Proc.devRef .tc main_arg1) = A1 m c := by
  show StableHlo.after hostOps0 (W0 m ρ c) (Proc.devRef .tc main_arg1) = _
  after_results
theorem W1_arg2 (c : Dev nD) : W1 m ρ c (Proc.devRef .tc main_arg2) = A2 m c := by
  show StableHlo.after hostOps0 (W0 m ρ c) (Proc.devRef .tc main_arg2) = _
  after_results
set_option maxHeartbeats 2000000 in
theorem W1_v5 (c : Dev nD) : W1 m ρ c (Proc.devRef .tc main_v5) = Rdeg m c := by
  show StableHlo.after hostOps0 (W0 m ρ c) (Proc.devRef .tc main_v5) = _
  after_results_simp
  rfl
theorem W1_arg6 (c : Dev nD) : W1 m ρ c (Proc.devRef .tc main_arg6) = A6 m c := by
  show StableHlo.after hostOps0 (W0 m ρ c) (Proc.devRef .tc main_arg6) = _
  after_results
theorem W1_arg7 (c : Dev nD) : W1 m ρ c (Proc.devRef .tc main_arg7) = A7 m c := by
  show StableHlo.after hostOps0 (W0 m ρ c) (Proc.devRef .tc main_arg7) = _
  after_results
theorem W1_arg8 (c : Dev nD) : W1 m ρ c (Proc.devRef .tc main_arg8) = A8 m c := by
  show StableHlo.after hostOps0 (W0 m ρ c) (Proc.devRef .tc main_arg8) = _
  after_results
theorem W1_arg9 (c : Dev nD) : W1 m ρ c (Proc.devRef .tc main_arg9) = A9 m c := by
  show StableHlo.after hostOps0 (W0 m ρ c) (Proc.devRef .tc main_arg9) = _
  after_results
theorem W1_arg10 (c : Dev nD) : W1 m ρ c (Proc.devRef .tc main_arg10) = A10 m c := by
  show StableHlo.after hostOps0 (W0 m ρ c) (Proc.devRef .tc main_arg10) = _
  after_results
theorem W1_arg11 (c : Dev nD) : W1 m ρ c (Proc.devRef .tc main_arg11) = A11 m c := by
  show StableHlo.after hostOps0 (W0 m ρ c) (Proc.devRef .tc main_arg11) = _
  after_results

/-! ## Boundary 2: after region 0 -/

/-- Region 0 leaves layer 0's result in its output array. -/
theorem W2_v20 (c : Dev nD) : W2 m ρ c (Proc.devRef .tc main_v20) = R25 m c :=
  calc W2 m ρ c (Proc.devRef .tc main_v20)
    _ = (dat0 (V1 m ρ) c).arrAt 5 cfg0.N := W2_arr m ρ c 5
    _ = Cert.Sage.layer0 (V1 m ρ c main_arg0) (V1 m ρ c main_v18) (V1 m ρ c main_arg3) (V1 m ρ c main_arg4) (V1 m ρ c main_v19) :=
        Cert.Sage.K0.value (V1 m ρ) c
    _ = Cert.Sage.layer0 (A0 m c) (R18 m c) (A3 m c) (A4 m c) (R22 m c) := by
        rw [V1_arg0 m ρ c, V1_v18 m ρ c, V1_arg3 m ρ c, V1_arg4 m ρ c, V1_v19 m ρ c]
    _ = R25 m c := (Cert.Sage.Ref.layer0_eq _ _ _ _ _ _).symm

theorem W2_arg1 (c : Dev nD) : W2 m ρ c (Proc.devRef .tc main_arg1) = A1 m c :=
  (W2_of_ne m ρ c main_arg1 (by decide)).trans (W1_arg1 m ρ c)
theorem W2_arg2 (c : Dev nD) : W2 m ρ c (Proc.devRef .tc main_arg2) = A2 m c :=
  (W2_of_ne m ρ c main_arg2 (by decide)).trans (W1_arg2 m ρ c)
theorem W2_v5 (c : Dev nD) : W2 m ρ c (Proc.devRef .tc main_v5) = Rdeg m c :=
  (W2_of_ne m ρ c main_v5 (by decide)).trans (W1_v5 m ρ c)
theorem W2_arg6 (c : Dev nD) : W2 m ρ c (Proc.devRef .tc main_arg6) = A6 m c :=
  (W2_of_ne m ρ c main_arg6 (by decide)).trans (W1_arg6 m ρ c)
theorem W2_arg7 (c : Dev nD) : W2 m ρ c (Proc.devRef .tc main_arg7) = A7 m c :=
  (W2_of_ne m ρ c main_arg7 (by decide)).trans (W1_arg7 m ρ c)
theorem W2_arg8 (c : Dev nD) : W2 m ρ c (Proc.devRef .tc main_arg8) = A8 m c :=
  (W2_of_ne m ρ c main_arg8 (by decide)).trans (W1_arg8 m ρ c)
theorem W2_arg9 (c : Dev nD) : W2 m ρ c (Proc.devRef .tc main_arg9) = A9 m c :=
  (W2_of_ne m ρ c main_arg9 (by decide)).trans (W1_arg9 m ρ c)
theorem W2_arg10 (c : Dev nD) : W2 m ρ c (Proc.devRef .tc main_arg10) = A10 m c :=
  (W2_of_ne m ρ c main_arg10 (by decide)).trans (W1_arg10 m ρ c)
theorem W2_arg11 (c : Dev nD) : W2 m ρ c (Proc.devRef .tc main_arg11) = A11 m c :=
  (W2_of_ne m ρ c main_arg11 (by decide)).trans (W1_arg11 m ρ c)

/-! ## Boundary 3: after the second stretch (region 1's entry) -/

theorem V3_v20 (c : Dev nD) : V3 m ρ c main_v20 = R25 m c := by
  show StableHlo.after hostOps1 (W2 m ρ c) (Proc.devRef .tc main_v20) = _
  after_results
  exact W2_v20 m ρ c
set_option maxHeartbeats 2000000 in
/-- The second stretch aggregates layer 0's result exactly as the reference does. -/
theorem V3_v33 (c : Dev nD) : V3 m ρ c main_v33 = R38 m c := by
  show StableHlo.after hostOps1 (W2 m ρ c) (Proc.devRef .tc main_v33) = _
  after_results_simp
  rw [W2_v20 m ρ c, W2_arg1 m ρ c, W2_arg2 m ρ c, W2_v5 m ρ c]
  rfl
theorem V3_arg6 (c : Dev nD) : V3 m ρ c main_arg6 = A6 m c := by
  show StableHlo.after hostOps1 (W2 m ρ c) (Proc.devRef .tc main_arg6) = _
  after_results
  exact W2_arg6 m ρ c
theorem V3_arg7 (c : Dev nD) : V3 m ρ c main_arg7 = A7 m c := by
  show StableHlo.after hostOps1 (W2 m ρ c) (Proc.devRef .tc main_arg7) = _
  after_results
  exact W2_arg7 m ρ c
theorem V3_v34 (c : Dev nD) : V3 m ρ c main_v34 = R42 m c := by
  show StableHlo.after hostOps1 (W2 m ρ c) (Proc.devRef .tc main_v34) = _
  after_results
  rw [W2_arg8 m ρ c]
  exact row128 _ _

theorem W3_arg1 (c : Dev nD) : W3 m ρ c (Proc.devRef .tc main_arg1) = A1 m c := by
  show StableHlo.after hostOps1 (W2 m ρ c) (Proc.devRef .tc main_arg1) = _
  after_results
  exact W2_arg1 m ρ c
theorem W3_arg2 (c : Dev nD) : W3 m ρ c (Proc.devRef .tc main_arg2) = A2 m c := by
  show StableHlo.after hostOps1 (W2 m ρ c) (Proc.devRef .tc main_arg2) = _
  after_results
  exact W2_arg2 m ρ c
theorem W3_v5 (c : Dev nD) : W3 m ρ c (Proc.devRef .tc main_v5) = Rdeg m c := by
  show StableHlo.after hostOps1 (W2 m ρ c) (Proc.devRef .tc main_v5) = _
  after_results
  exact W2_v5 m ρ c
theorem W3_arg9 (c : Dev nD) : W3 m ρ c (Proc.devRef .tc main_arg9) = A9 m c := by
  show StableHlo.after hostOps1 (W2 m ρ c) (Proc.devRef .tc main_arg9) = _
  after_results
  exact W2_arg9 m ρ c
theorem W3_arg10 (c : Dev nD) : W3 m ρ c (Proc.devRef .tc main_arg10) = A10 m c := by
  show StableHlo.after hostOps1 (W2 m ρ c) (Proc.devRef .tc main_arg10) = _
  after_results
  exact W2_arg10 m ρ c
theorem W3_arg11 (c : Dev nD) : W3 m ρ c (Proc.devRef .tc main_arg11) = A11 m c := by
  show StableHlo.after hostOps1 (W2 m ρ c) (Proc.devRef .tc main_arg11) = _
  after_results
  exact W2_arg11 m ρ c

/-! ## Boundary 4: after region 1 -/

/-- Region 1 leaves layer 1's result in its output array. -/
theorem W4_v35 (c : Dev nD) : W4 m ρ c (Proc.devRef .tc main_v35) = R45 m c :=
  calc W4 m ρ c (Proc.devRef .tc main_v35)
    _ = (dat1 (V3 m ρ) c).arrAt 5 cfg1.N := W4_arr m ρ c 5
    _ = Cert.Sage.layer1 (V3 m ρ c main_v20) (V3 m ρ c main_v33) (V3 m ρ c main_arg6) (V3 m ρ c main_arg7) (V3 m ρ c main_v34) :=
        Cert.Sage.K1.value (V3 m ρ) c
    _ = Cert.Sage.layer1 (R25 m c) (R38 m c) (A6 m c) (A7 m c) (R42 m c) := by
        rw [V3_v20 m ρ c, V3_v33 m ρ c, V3_arg6 m ρ c, V3_arg7 m ρ c, V3_v34 m ρ c]
    _ = R45 m c := (Cert.Sage.Ref.layer1_eq _ _ _ _ _ _ _ _ _).symm

theorem W4_arg1 (c : Dev nD) : W4 m ρ c (Proc.devRef .tc main_arg1) = A1 m c :=
  (W4_of_ne m ρ c main_arg1 (by decide)).trans (W3_arg1 m ρ c)
theorem W4_arg2 (c : Dev nD) : W4 m ρ c (Proc.devRef .tc main_arg2) = A2 m c :=
  (W4_of_ne m ρ c main_arg2 (by decide)).trans (W3_arg2 m ρ c)
theorem W4_v5 (c : Dev nD) : W4 m ρ c (Proc.devRef .tc main_v5) = Rdeg m c :=
  (W4_of_ne m ρ c main_v5 (by decide)).trans (W3_v5 m ρ c)
theorem W4_arg9 (c : Dev nD) : W4 m ρ c (Proc.devRef .tc main_arg9) = A9 m c :=
  (W4_of_ne m ρ c main_arg9 (by decide)).trans (W3_arg9 m ρ c)
theorem W4_arg10 (c : Dev nD) : W4 m ρ c (Proc.devRef .tc main_arg10) = A10 m c :=
  (W4_of_ne m ρ c main_arg10 (by decide)).trans (W3_arg10 m ρ c)
theorem W4_arg11 (c : Dev nD) : W4 m ρ c (Proc.devRef .tc main_arg11) = A11 m c :=
  (W4_of_ne m ρ c main_arg11 (by decide)).trans (W3_arg11 m ρ c)

/-! ## Boundary 5: after the third stretch (region 2's entry) -/

theorem V5_v35 (c : Dev nD) : V5 m ρ c main_v35 = R45 m c := by
  show StableHlo.after hostOps2 (W4 m ρ c) (Proc.devRef .tc main_v35) = _
  after_results
  exact W4_v35 m ρ c
set_option maxHeartbeats 2000000 in
/-- The third stretch aggregates layer 1's result exactly as the reference does. -/
theorem V5_v48 (c : Dev nD) : V5 m ρ c main_v48 = R58 m c := by
  show StableHlo.after hostOps2 (W4 m ρ c) (Proc.devRef .tc main_v48) = _
  after_results_simp
  rw [W4_v35 m ρ c, W4_arg1 m ρ c, W4_arg2 m ρ c, W4_v5 m ρ c]
  rfl
theorem V5_arg9 (c : Dev nD) : V5 m ρ c main_arg9 = A9 m c := by
  show StableHlo.after hostOps2 (W4 m ρ c) (Proc.devRef .tc main_arg9) = _
  after_results
  exact W4_arg9 m ρ c
theorem V5_arg10 (c : Dev nD) : V5 m ρ c main_arg10 = A10 m c := by
  show StableHlo.after hostOps2 (W4 m ρ c) (Proc.devRef .tc main_arg10) = _
  after_results
  exact W4_arg10 m ρ c
theorem V5_v49 (c : Dev nD) : V5 m ρ c main_v49 = R62 m c := by
  show StableHlo.after hostOps2 (W4 m ρ c) (Proc.devRef .tc main_v49) = _
  after_results
  rw [W4_arg11 m ρ c]
  exact row64 _ _

/-! ## Boundary 6: after region 2 — the result -/

/-- THE RESULT: after the last region the result array holds the reference's result stage of the argument arrays. -/
theorem W6_v50 (c : Dev nD) : W6 m ρ c (Proc.devRef .tc main_v50) = R65 m c :=
  calc W6 m ρ c (Proc.devRef .tc main_v50)
    _ = (dat2 (V5 m ρ) c).arrAt 5 cfg2.N := W6_arr m ρ c 5
    _ = Cert.Sage.layer2 (V5 m ρ c main_v35) (V5 m ρ c main_v48) (V5 m ρ c main_arg9) (V5 m ρ c main_arg10) (V5 m ρ c main_v49) :=
        Cert.Sage.K2.value (V5 m ρ) c
    _ = Cert.Sage.layer2 (R45 m c) (R58 m c) (A9 m c) (A10 m c) (R62 m c) := by
        rw [V5_v35 m ρ c, V5_v48 m ρ c, V5_arg9 m ρ c, V5_arg10 m ρ c, V5_v49 m ρ c]
    _ = R65 m c := (Cert.Sage.Ref.layer2_eq _ _ _ _ _ _ _ _ _ _ _ _).symm

end Cert.Sage.Chain

end
-- ==== Proof.lean ====
/-
  GraphSAGE with three mean-aggregation layers: the Pallas program against the jnp reference, over the extended reals.

  Both programs compute, for node features `h` (starting from `feat`), three times

      h ← relu ( h · w_self + mean_agg(h) · w_neigh + b ),

  where `mean_agg(h)` gathers the rows of `h` at the source indices, scatter-adds them at the destination indices and
  divides by the in-degree clamped below by 1. The kernel program keeps `mean_agg` in host operations (the same
  operations as the reference) and computes each `relu(…)` in a pallas_call over 50 blocks of 2000 rows, with bf16 casts
  of the matmul operands that are the identity on the extended reals and an f32 zero accumulator; the reference uses two
  `dot_general`s, two additions and a maximum with zero. Entry by entry both are

      max ( Σ_k h[r,k]·ws[k,d] + Σ_k hn[r,k]·wn[k,d] + b[d] , 0 ),

  with the same grouping of the two additions, so no law beyond reading each operation at an index is used, and the
  finiteness precondition is never opened.

  Frames: the two kernel programs' frames are the generated several-region frames; the reference's is its generated run
  with the result dropped. `preserves` has no ledger entry. `algebraic`: the kernel's run names its result array
  (KernelIdealRunValue), which Chain reads back, region by region and stretch by stretch, to the reference's result
  stage of the arguments; the reference's generated run ends at that same stage of its own arguments, and the arguments
  agree.
-/
import proofs.«136679_j50062138802388_1_alg».proof.Defs
import proofs.«136679_j50062138802388_1_alg».proof.Proof.Gen.Kernel
import proofs.«136679_j50062138802388_1_alg».proof.Proof.KernelFrameP
import proofs.«136679_j50062138802388_1_alg».proof.Proof.Gen.KernelIdeal
import proofs.«136679_j50062138802388_1_alg».proof.Proof.KernelIdealFrameP
import proofs.«136679_j50062138802388_1_alg».proof.Proof.KernelIdealRunValue
import proofs.«136679_j50062138802388_1_alg».proof.Proof.Gen.ReferenceIdeal
import proofs.«136679_j50062138802388_1_alg».proof.Proof.Gen.ReferenceIdeal.Run
import proofs.«136679_j50062138802388_1_alg».proof.Proof.Gen.ReferenceIdeal.Read
import proofs.«136679_j50062138802388_1_alg».proof.Proof.Gen.Pre_finite_inputs
import proofs.«136679_j50062138802388_1_alg».proof.Proof.Chain
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.GenP.frame m ρ

/-- The idealized kernel program runs and leaves its arguments as launched. -/
theorem frame_ki : Cert.frame_KernelIdeal := fun m ρ _ => Cert.KernelIdeal.GenP.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the three-layer network's output of the (agreeing) arguments. -/
theorem algebraic : Cert.algebraic_KernelIdeal_ReferenceIdeal := by
  intro m ρ m' ρ' _ hagree
  refine ⟨fun c => Cert.Sage.Chain.R65 m c, ?_, ?_⟩
  · exact (θ_run Cert.KernelIdeal.defs _ _).mono
      (fun r h c => ⟨(h c).1.trans (Cert.Sage.Chain.W6_v50 m ρ c), (h c).2⟩)
      (Cert.KernelIdeal.GenP.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.ReferenceIdeal.Read.val_main_v65_eq, h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
